-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S625000 : Shape := ⟨1, ![625000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S625000 32) (main_arg2 : IVec S625000 32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S625000 : Shape := ⟨1, ![625000]⟩
abbrev S128x128 : Shape := ⟨2, ![128, 128]⟩
abbrev S128 : Shape := ⟨1, ![128]⟩
abbrev S_ : Shape := ⟨0, ![]⟩
abbrev S625000x1 : Shape := ⟨2, ![625000, 1]⟩
abbrev S625000x128 : Shape := ⟨2, ![625000, 128]⟩
abbrev S2000x128 : Shape := ⟨2, ![2000, 128]⟩
abbrev S1x128 : Shape := ⟨2, ![1, 128]⟩

abbrev nBuf : Space → Nat
  | .hbm => 19
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S625000, .i32⟩
  | .hbm, ⟨2, _⟩ => ⟨S625000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S625000, .i32⟩
  | .hbm, ⟨7, _⟩ => ⟨S625000, .i1⟩
  | .hbm, ⟨8, _⟩ => ⟨S_, .i32⟩
  | .hbm, ⟨9, _⟩ => ⟨S625000, .i32⟩
  | .hbm, ⟨10, _⟩ => ⟨S625000, .i32⟩
  | .hbm, ⟨11, _⟩ => ⟨S625000, .i32⟩
  | .hbm, ⟨12, _⟩ => ⟨S625000x1, .i32⟩
  | .hbm, ⟨13, _⟩ => ⟨S625000x128, .f32⟩
  | .hbm, ⟨14, _⟩ => ⟨S_, .f32⟩
  | .hbm, ⟨15, _⟩ => ⟨S50000x128, .f32⟩
  | .hbm, ⟨16, _⟩ => ⟨S625000x1, .i32⟩
  | .hbm, ⟨17, _⟩ => ⟨S50000x128, .f32⟩
  | .hbm, ⟨18, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S625000 : S_.BroadcastsInDim S625000 (![] : Fin 0 → Fin S625000.rank)
  bcast_S625000_S625000x1_0 : S625000.BroadcastsInDim S625000x1 (![0] : Fin 1 → Fin S625000x1.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v9) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S625000 : Shape := ⟨1, ![625000]⟩
abbrev S128x128 : Shape := ⟨2, ![128, 128]⟩
abbrev S128 : Shape := ⟨1, ![128]⟩
abbrev S_ : Shape := ⟨0, ![]⟩
abbrev S625000x1 : Shape := ⟨2, ![625000, 1]⟩
abbrev S625000x128 : Shape := ⟨2, ![625000, 128]⟩
abbrev S1x128 : Shape := ⟨2, ![1, 128]⟩

abbrev nBuf : Space → Nat
  | .hbm => 23
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S625000, .i32⟩
  | .hbm, ⟨2, _⟩ => ⟨S625000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S625000, .i32⟩
  | .hbm, ⟨7, _⟩ => ⟨S625000, .i1⟩
  | .hbm, ⟨8, _⟩ => ⟨S_, .i32⟩
  | .hbm, ⟨9, _⟩ => ⟨S625000, .i32⟩
  | .hbm, ⟨10, _⟩ => ⟨S625000, .i32⟩
  | .hbm, ⟨11, _⟩ => ⟨S625000, .i32⟩
  | .hbm, ⟨12, _⟩ => ⟨S625000x1, .i32⟩
  | .hbm, ⟨13, _⟩ => ⟨S625000x128, .f32⟩
  | .hbm, ⟨14, _⟩ => ⟨S_, .f32⟩
  | .hbm, ⟨15, _⟩ => ⟨S50000x128, .f32⟩
  | .hbm, ⟨16, _⟩ => ⟨S625000x1, .i32⟩
  | .hbm, ⟨17, _⟩ => ⟨S50000x128, .f32⟩
  | .hbm, ⟨18, _⟩ => ⟨S128x128, .f32⟩
  | .hbm, ⟨19, _⟩ => ⟨S50000x128, .f32⟩
  | .hbm, ⟨20, _⟩ => ⟨S1x128, .f32⟩
  | .hbm, ⟨21, _⟩ => ⟨S50000x128, .f32⟩
  | .hbm, ⟨22, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S625000 : S_.BroadcastsInDim S625000 (![] : Fin 0 → Fin S625000.rank)
  bcast_S625000_S625000x1_0 : S625000.BroadcastsInDim S625000x1 (![0] : Fin 1 → Fin S625000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  dot_S50000x128_S128x128_S50000x128_1_0_0_1_n_n_wf : DotDims.WF S50000x128 S128x128 S50000x128 [1] [0] [0] [1] [] []

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.NodeAffine.lean ====
/-
  The node-wise affine update both programs apply to the aggregated features, as one function over the extended reals.

  With `agg` the [50000 × 128] array of aggregated messages, `W` the [128 × 128] weight stored output-major
  (row `j` holds the weights of output feature `j`) and `b` the bias, the update is the product of `agg` with the
  TRANSPOSE of `W`, plus the bias along every row:

      out[r, j] = ∑ₖ agg[r, k] · W[j, k] + b[j].

  Row `r` of the result depends on row `r` of `agg` only, which is why the rows can be computed in independent blocks.
-/
import Idealize.ShloMosaic.PureOps.Ideal
import Idealize.ShloMosaic.Lib.ValueIdx

noncomputable section

namespace Cert.NodeAffine

open Idealize.ShloMosaic Idealize.ShloMosaic.ValueIdx

/-- `out[r, j] = ∑ₖ agg[r, k] · W[j, k] + b[j]` on the extended reals. -/
def affine (agg : FVec Ideal (⟨2, ![50000, 128]⟩ : Shape) .f32) (W : FVec Ideal (⟨2, ![128, 128]⟩ : Shape) .f32)
    (b : FVec Ideal (⟨1, ![128]⟩ : Shape) .f32) : FVec Ideal (⟨2, ![50000, 128]⟩ : Shape) .f32 :=
  fun i => (∑ k : Fin 128, agg (ix2 (i 0) k) * W (ix2 (i 1) k)) + b (ix1 (i 1))

/-- The update read at row `r`, output feature `j`. -/
theorem affine_at (agg : FVec Ideal (⟨2, ![50000, 128]⟩ : Shape) .f32) (W : FVec Ideal (⟨2, ![128, 128]⟩ : Shape) .f32)
    (b : FVec Ideal (⟨1, ![128]⟩ : Shape) .f32) (r : Fin 50000) (j : Fin 128) :
    affine agg W b (ix2 r j) = (∑ k : Fin 128, agg (ix2 r k) * W (ix2 j k)) + b (ix1 j) := rfl

end Cert.NodeAffine

end
-- ==== Proof.ReferenceAffine.lean ====
/-
  The reference's last five operations — transpose the weight, contract the aggregated features' feature axis with the
  transposed weight's first axis, lay the bias out as a row and repeat it down the rows, add — are the affine update
  `out[r, j] = ∑ₖ agg[r, k] · W[j, k] + b[j]` of whatever the aggregation produced.

  The contraction reads the left operand at (r, k) and the transposed weight at (k, j), that is the weight itself at
  (j, k); the two broadcasts read the bias at j whatever the row.
-/
import proofs.«153253_j44719199486429_1_alg».proof.Proof.Gen.ReferenceIdeal.Read
import proofs.«153253_j44719199486429_1_alg».proof.Proof.NodeAffine

noncomputable section

namespace Cert.ReferenceIdeal.Affine

open Cert.ReferenceIdeal Cert.ReferenceIdeal.Gen Cert.ReferenceIdeal.Read
open Idealize.ShloMosaic Idealize.ShloMosaic.ValueIdx

/-- The contraction reads the aggregated features at (row, k). -/
theorem left_at (i : S50000x128.Idx) (k : Fin 128) : lidx_main_v11 i k = ix2 (i 0) k :=
  funext fun a => Fin.ext (by match a with | ⟨0, _⟩ => rfl | ⟨1, _⟩ => rfl)

/-- The contraction reads the transposed weight at (k, column): the weight itself at (column, k). -/
theorem right_at (i : S50000x128.Idx) (k : Fin 128) : idx_main_v10 (ridx_main_v11 i k) = ix2 (i 1) k :=
  funext fun a => Fin.ext (by match a with | ⟨0, _⟩ => rfl | ⟨1, _⟩ => rfl)

/-- The bias, laid out as one row and repeated down the rows, is read at the column. -/
theorem bias_at (i : S50000x128.Idx) : idx_main_v12 (idx_main_v13 i) = ix1 (i 1) :=
  funext fun a => Fin.ext (by match a with | ⟨0, _⟩ => rfl)

/-- The reference's result is the affine update of its own aggregation stage. -/
theorem result_eq (x0 : (⟨S50000x128, .f32⟩ : BufTy).Contents (Elt Ideal)) (x1 x2 : (⟨S625000, .i32⟩ : BufTy).Contents (Elt Ideal))
    (x3 : (⟨S128x128, .f32⟩ : BufTy).Contents (Elt Ideal)) (x4 : (⟨S128, .f32⟩ : BufTy).Contents (Elt Ideal)) :
    val_main_v14 (F := Ideal) x0 x1 x2 x3 x4 = Cert.NodeAffine.affine (val_main_v9 (F := Ideal) x0 x1 x2) x3 x4 := by
  funext i
  rw [val_main_v14_apply, val_main_v11_apply, val_main_v13_apply, val_main_v12_apply]
  simp only [val_main_v10_apply, left_at, right_at, bias_at]
  rfl

end Cert.ReferenceIdeal.Affine

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.BlockPayload.lean ====
/-
  What the kernel body stores for one block of 2000 rows, read at one entry over the extended reals.

  The body rounds the block of aggregated features and the weight to bf16 — the identity on the extended reals —,
  transposes the weight, multiplies the two into a zero accumulator and adds the bias repeated down the rows. The
  product contracts the block's feature axis with the transposed weight's first axis, so entry (p, q) is

      ∑ₖ block[p, k] · W[q, k] + b[q]:

  the affine update restricted to the block's rows.
-/
import proofs.«153253_j44719199486429_1_alg».proof.Proof.Gen.KernelIdeal.Skeleton
import proofs.«153253_j44719199486429_1_alg».proof.Proof.LibMatmulAt
import Idealize.ShloMosaic.Lib.ValueLayout
import Idealize.ShloMosaic.Lib.Pipeline.Value

noncomputable section

namespace Cert.KernelIdeal.Affine

open Cert.KernelIdeal Cert.KernelIdeal.Gen
open Idealize.ShloMosaic Idealize.ShloMosaic.ValueIdx

/-! ## Where the block product reads its operands -/

/-- The left operand is read at the output's row … -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

/-- … and the contracted index; -/
theorem lhs_contr (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- the right operand at the contracted index … -/
theorem rhs_contr (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- … and the output's column. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-! ## The stored value at an entry -/

/-- The bias, cast to one row and repeated down the block's rows, read at (p, q), is the bias at q. -/
theorem bias_rows_at (x2 : Vec Ideal S128 .f32) (p : Fin 2000) (q : Fin 128) :
    broadcastTo S2000x128 (shapeCast S1x128 x2 shapeCasts_S128_S1x128) broadcasts_S1x128_S2000x128 (ix2 p q) = x2 (ix1 q) := by
  rw [broadcastTo_1b_ab_apply, shapeCast_a_1a_apply]

/-- Entry (p, q) of the block the body stores: `∑ₖ x0[p, k] · x1[q, k] + x2[q]`, for `x0` the block of aggregated
    features, `x1` the weight and `x2` the bias as loaded. -/
theorem stored_at (x0 : Vec Ideal S2000x128 .f32) (x1 : Vec Ideal S128x128 .f32) (x2 : Vec Ideal S128 .f32) (p : Fin 2000) (q : Fin 128) :
    k0_pay1 (F := Ideal) x0 x1 x2 (ix2 p q) = (∑ k : Fin 128, x0 (ix2 p k) * x1 (ix2 q k)) + x2 (ix1 q) := by
  unfold k0_pay1
  have hprod := MatmulAt.matmul_zero_at dot_S2000x128_S128x128_S2000x128_1_0_0_1_n_n rfl rfl lhs_row lhs_contr rhs_contr rhs_col none
    (truncf .bf16 (shapeCast S2000x128 x0 shapeCasts_S2000x128_S2000x128) bitsLt_bf16_f32)
    (transpose S128x128 [1, 0] (truncf .bf16 x1 bitsLt_bf16_f32) transposes_S128x128_p1_0_S128x128) p q
  refine (congrArg₂ (· + ·) hprod (bias_rows_at x2 p q)).trans ?_
  refine congrArg (· + x2 (ix1 q)) (Finset.sum_congr rfl fun k _ => ?_)
  rw [transpose_ix2_apply, truncf_apply, truncf_apply, shapeCast_self]

end Cert.KernelIdeal.Affine

end
-- ==== Proof.ResultArray.lean ====
/-
  The kernel's whole result array over the extended reals.

  The region finds, in its first operand's array, the aggregation the host operations before it computed: the
  features gathered along each edge's source (a negative source counted from the end) and added into the row of the
  edge's destination, starting from zeros. The grid has 25 points; point `t` reads rows `2000·t … 2000·t + 1999` of
  that array, the whole weight and the whole bias, and writes back rows `2000·t … 2000·t + 1999` of the result. Since
  row `r` of the affine update depends on row `r` of the aggregation only, what point `t` writes back is block `t` of
  the affine update of the whole arrays; the 25 blocks tile the 50000 rows (row `r` lies in block `r / 2000`), so the
  result array ends holding the affine update everywhere.
-/
import proofs.«153253_j44719199486429_1_alg».proof.Proof.Gen.KernelIdeal.Value
import proofs.«153253_j44719199486429_1_alg».proof.Proof.BlockPayload
import proofs.«153253_j44719199486429_1_alg».proof.Proof.NodeAffine
import Idealize.ShloMosaic.Lib.StableHlo.Run

noncomputable section

namespace Cert.KernelIdeal.Affine

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The aggregation the region finds -/

/-- Gather the features along each edge's source — a negative source index has 50000 added first — and add each
    gathered row into the row of the edge's destination, starting from an array of zeros. -/
def aggregated (feature : (⟨S50000x128, .f32⟩ : BufTy).Contents (Elt Ideal)) (src dst : (⟨S625000, .i32⟩ : BufTy).Contents (Elt Ideal)) :
    (⟨S50000x128, .f32⟩ : BufTy).Contents (Elt Ideal) :=
  Host.scatterAdd scatter_S50000x128_S625000x1_S625000x128_1_0_0_1
    (broadcastInDim S50000x128 ![] bcast_S_S50000x128 (constant (F := Ideal) S_ .f32 0x00000000#32))
    (broadcastInDim S625000x1 ![0] bcast_S625000_S625000x1_0 dst)
    (Host.gather gather_S50000x128_S625000x1_S625000x128_1_0_n_n_0_1_1128 feature
      (broadcastInDim S625000x1 ![0] bcast_S625000_S625000x1_0
        (select (cmpi .slt src (broadcastInDim S625000 ![] bcast_S_S625000 (constantI S_ 32 0#32)))
          (addi src (broadcastInDim S625000 ![] bcast_S_S625000 (constantI S_ 32 50000#32))) src)))

/-- The region's first operand holds that aggregation of the arguments as launched. -/
theorem entry_aggregated (c : Dev nD) :
    (V m c main_v9 : S50000x128.Idx → EReal) = aggregated (m ((c : Thread nD τ).loc main_arg0)) (m ((c : Thread nD τ).loc main_arg1)) (m ((c : Thread nD τ).loc main_arg2)) := by
  dsimp only [Gen.V, Gen.hostOps0]; after_results; rfl

/-! ## One point's block -/

theorem origin2 : (![0, 0] : Fin 2 → Nat) = fun _ => 0 := funext fun a => by fin_cases a <;> rfl
theorem origin1 : (![0] : Fin 1 → Nat) = fun _ => 0 := funext fun a => by fin_cases a <;> rfl

/-- The index maps over the 25 points: the aggregation and the result move one block of rows per point, the weight
    and the bias stay. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- A stored block whose loads, at block entry (p, q), are row `i 0` of `agg`, row `i 1` of the weight and entry `i 1`
    of the bias is the affine update at the array index `i`. -/
theorem stored_is_affine (x0 : Vec Ideal S2000x128 .f32) (x1 : Vec Ideal S128x128 .f32) (x2 : Vec Ideal S128 .f32)
    (agg : FVec Ideal (⟨2, ![50000, 128]⟩ : Shape) .f32) (W : FVec Ideal (⟨2, ![128, 128]⟩ : Shape) .f32)
    (b : FVec Ideal (⟨1, ![128]⟩ : Shape) .f32) (p : Fin 2000) (q : Fin 128) (i : S50000x128.Idx)
    (h0 : ∀ k : Fin 128, x0 (ix2 p k) = agg (ix2 (i 0) k))
    (h1 : ∀ k : Fin 128, x1 (ix2 q k) = W (ix2 (i 1) k))
    (h2 : x2 (ix1 q) = b (ix1 (i 1))) :
    k0_pay1 (F := Ideal) x0 x1 x2 (ix2 p q) = Cert.NodeAffine.affine agg W b i := by
  rw [stored_at]
  show _ = (∑ k : Fin 128, agg (ix2 (i 0) k) * W (ix2 (i 1) k)) + b (ix1 (i 1))
  simp only [h0, h1, h2]

/-- What point `t` writes back is block `t` of the affine update of the arrays as the region finds them. -/
theorem flushed_eq (c : Dev nD) (t : Fin cfg0.N) :
    (dats m 0 c).flushed 3 t = ((cfg0.win 3).blk t).view.read (Elt Ideal)
      (Cert.NodeAffine.affine (V m c main_v9) (V m c main_arg3) (V m c main_arg4)) := by
  rw [flushed3]
  unfold out0_3
  rw [View.canon_unit_zero origin2]
  simp only [View.ld_unit_zero (S := S2000x128) origin2, View.ld_unit_zero (S := S128x128) origin2, View.ld_unit_zero (S := S128) origin1]
  obtain ⟨a0, a1, w0, w1, b0, o0, o1⟩ := block_indices t
  funext j
  obtain ⟨p, q, rfl⟩ : ∃ (p : Fin 2000) (q : Fin 128), j = ix2 p q := ⟨j 0, j 1, eq_ix2 j⟩
  refine stored_is_affine (iblk m c 0 t) (iblk m c 1 t) (iblk m c 2 t) (V m c main_v9) (V m c main_arg3) (V m c main_arg4)
    p q (((cfg0.win 3).blk t).view.emb (ix2 p q)) (fun k => ?_) (fun k => ?_) ?_
  · show V m c main_v9 (((cfg0.win 0).blk t).view.emb (ix2 p k)) = _
    refine congrArg _ (funext fun a => Fin.ext ?_)
    match a with
    | ⟨0, _⟩ => show win0_0.index t (0 : Fin 2) * 2000 + 1 * p.val = win0_3.index t (0 : Fin 2) * 2000 + 1 * p.val; omega
    | ⟨1, _⟩ => show win0_0.index t (1 : Fin 2) * 128 + 1 * k.val = k.val; omega
  · show V m c main_arg3 (((cfg0.win 1).blk t).view.emb (ix2 q k)) = _
    refine congrArg _ (funext fun a => Fin.ext ?_)
    match a with
    | ⟨0, _⟩ => show win0_1.index t (0 : Fin 2) * 128 + 1 * q.val = win0_3.index t (1 : Fin 2) * 128 + 1 * q.val; omega
    | ⟨1, _⟩ => show win0_1.index t (1 : Fin 2) * 128 + 1 * k.val = k.val; omega
  · show V m c main_arg4 (((cfg0.win 2).blk t).view.emb (ix1 q)) = _
    refine congrArg _ (funext fun a => Fin.ext ?_)
    match a with
    | ⟨0, _⟩ => show win0_2.index t (0 : Fin 1) * 128 + 1 * q.val = win0_3.index t (1 : Fin 2) * 128 + 1 * q.val; omega

/-! ## The blocks tile the rows -/

/-- An index of the result array is in point `t`'s block iff each coordinate is in the block's range on its axis. -/
theorem mem_block (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v10).slice (win0_3.rect t)).set ↔ _
  rw [View.set_slice_whole, Rect.mem_set_unit]
  exact Iff.rfl

/-- Row `r` lies in the block of point `r / 2000`. -/
theorem rows_covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hlt : (i 0).val / 2000 < 25 := by omega
  obtain ⟨-, -, -, -, -, o0, o1⟩ := block_indices ⟨(i 0).val / 2000, hlt⟩
  refine ⟨⟨(i 0).val / 2000, hlt⟩, flush0_3 _, ?_⟩
  rw [mem_block]
  intro a
  match a with
  | ⟨0, _⟩ =>
    show win0_3.index ⟨(i 0).val / 2000, hlt⟩ (0 : Fin 2) * 2000 ≤ (i 0).val ∧ (i 0).val < win0_3.index ⟨(i 0).val / 2000, hlt⟩ (0 : Fin 2) * 2000 + 2000
    rw [o0]; show (i 0).val / 2000 * 2000 ≤ (i 0).val ∧ (i 0).val < (i 0).val / 2000 * 2000 + 2000; omega
  | ⟨1, _⟩ =>
    show win0_3.index ⟨(i 0).val / 2000, hlt⟩ (1 : Fin 2) * 128 ≤ (i 1).val ∧ (i 1).val < win0_3.index ⟨(i 0).val / 2000, hlt⟩ (1 : Fin 2) * 128 + 128
    rw [o1]; omega

/-! ## The whole array, and the run -/

/-- After the run the result array is the affine update of the aggregation of the arguments as launched. -/
theorem result_array (c : Dev nD) :
    (dats m 0 c).arrAt 3 cfg0.N = Cert.NodeAffine.affine (aggregated (m ((c : Thread nD τ).loc main_arg0)) (m ((c : Thread nD τ).loc main_arg1)) (m ((c : Thread nD τ).loc main_arg2))) (m ((c : Thread nD τ).loc main_arg3)) (m ((c : Thread nD τ).loc main_arg4)) := by
  rw [(dats m 0 c).arrAt_eq_of_cover 3 (Cert.NodeAffine.affine (V m c main_v9) (V m c main_arg3) (V m c main_arg4))
    (fun t _ => flushed_eq m c t) rows_covered]
  rw [entry_aggregated, V_main_arg3, V_main_arg4]

/-- Every weakly fair execution of the kernel program ends with the result array at that function of the arguments,
    the arguments unchanged. -/
theorem run : θ_run defs (onTc (τ := τ) (main (F := Ideal))) ⟨m, fun _ => 0, ρ⟩ fun r => ∀ c : Dev nD,
      r.2.mem ((c : Thread nD τ).loc main_v10) = Cert.NodeAffine.affine (aggregated (m ((c : Thread nD τ).loc main_arg0)) (m ((c : Thread nD τ).loc main_arg1)) (m ((c : Thread nD τ).loc main_arg2))) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_array m c), (h c).2⟩) (run_blocks m ρ)

end Cert.KernelIdeal.Affine

end
-- ==== Proof.lean ====
/-
  A graph-convolution layer: gather each edge's source features, add them into the edge's destination node, then apply
  one linear layer `agg · Wᵀ + b` to every node.

  Both programs compute the aggregation with the same host operations (a gather along the sources, a negative source
  counted from the end, and a scatter-add into the destinations from zeros), so the aggregated array is one and the
  same term of the arguments on both sides; it is never opened. They differ in the linear layer only. The reference
  transposes the weight and contracts the whole [50000 × 128] aggregation with it, then adds the bias broadcast over
  the rows. The kernel does the same on 25 blocks of 2000 rows, after rounding the block and the weight to bf16 —
  the identity on the extended reals — and accumulating the product into zeros. Entry (r, j) is, on both sides,

      ∑ₖ agg[r, k] · W[j, k] + b[j]

  (`NodeAffine.affine`): for the reference by reading its last five operations at an index (`ReferenceAffine`), for
  the kernel by reading the stored block at an entry (`BlockPayload`) and observing that row r of the result needs row
  r of the aggregation only, so the 25 blocks written back are the blocks of that one function and tile the array
  (`ResultArray`). No algebraic law beyond `0 + x = x` joins the two sides, so the inputs' finiteness is not used.

  No operation is rewritten between the kernel and its idealization: the idealization is the kernel's own text read
  over the extended reals, and nothing is owed for it. Each program's frame is its run with the result dropped.
-/
import proofs.«153253_j44719199486429_1_alg».proof.Defs
import proofs.«153253_j44719199486429_1_alg».proof.Proof.Gen.Kernel
import proofs.«153253_j44719199486429_1_alg».proof.Proof.Gen.Kernel.Skeleton
import proofs.«153253_j44719199486429_1_alg».proof.Proof.Gen.Kernel.Launch
import proofs.«153253_j44719199486429_1_alg».proof.Proof.Gen.Kernel.Points
import proofs.«153253_j44719199486429_1_alg».proof.Proof.Gen.Kernel.Frame
import proofs.«153253_j44719199486429_1_alg».proof.Proof.Gen.KernelIdeal
import proofs.«153253_j44719199486429_1_alg».proof.Proof.Gen.KernelIdeal.Skeleton
import proofs.«153253_j44719199486429_1_alg».proof.Proof.Gen.KernelIdeal.Launch
import proofs.«153253_j44719199486429_1_alg».proof.Proof.Gen.KernelIdeal.Points
import proofs.«153253_j44719199486429_1_alg».proof.Proof.Gen.KernelIdeal.Frame
import proofs.«153253_j44719199486429_1_alg».proof.Proof.Gen.ReferenceIdeal
import proofs.«153253_j44719199486429_1_alg».proof.Proof.Gen.Pre_finite_inputs
import proofs.«153253_j44719199486429_1_alg».proof.Proof.Gen.KernelIdeal.Value
import proofs.«153253_j44719199486429_1_alg».proof.Proof.Gen.ReferenceIdeal.Run
import proofs.«153253_j44719199486429_1_alg».proof.Proof.Gen.ReferenceIdeal.Read
import proofs.«153253_j44719199486429_1_alg».proof.Proof.ReferenceAffine
import proofs.«153253_j44719199486429_1_alg».proof.Proof.ResultArray
import Idealize.ShloMosaic.Adequacy
import Idealize.ShloMosaic.Init

noncomputable section

namespace Cert.Proof

open Idealize.ShloMosaic Idealize.SL.Sem

/-- The word-level kernel runs, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The reference's aggregation stage is the aggregation the kernel's region finds: the same gather and scatter-add
    of the same arguments. -/
theorem aggregation_eq (x0 : (⟨Cert.ReferenceIdeal.S50000x128, .f32⟩ : BufTy).Contents (Elt Ideal))
    (x1 x2 : (⟨Cert.ReferenceIdeal.S625000, .i32⟩ : BufTy).Contents (Elt Ideal)) :
    Cert.ReferenceIdeal.Read.val_main_v9 (F := Ideal) x0 x1 x2 = Cert.KernelIdeal.Affine.aggregated x0 x1 x2 := rfl

/-- From memories agreeing on the arguments both programs end with the affine update of the one aggregation. -/
theorem algebraic : Cert.algebraic_KernelIdeal_ReferenceIdeal := by
  intro m ρ m' ρ' _ hagree
  refine ⟨_, Cert.KernelIdeal.Affine.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.Affine.result_eq, aggregation_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
